-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S1x1 : Shape := ⟨2, ![1, 1]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩
abbrev S1 : Shape := ⟨1, ![1]⟩
abbrev S4096 : Shape := ⟨1, ![4096]⟩
abbrev S_ : Shape := ⟨0, ![]⟩

abbrev nBuf : Space → Nat
  | .hbm => 11
  | .vmem => 4
  | .smem => 0
  | _ => 0

abbrev bufTy : (tb : Table) → Fin (tcTables nBuf tb) → BufTy
  | .hbm, ⟨0, _⟩ => ⟨S8192x4096, .f32⟩
  | .hbm, ⟨1, _⟩ => ⟨S1x1, .f32⟩
  | .hbm, ⟨2, _⟩ => ⟨S1x4096, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S1x1, .f32⟩
  | .local _ .vmem, ⟨3, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x4096_S1x4096_0_0 : ∀ a, (![0, 0] : Fin 2 → Nat) a + S1x4096.size a ≤ S1x4096.size a
  h_S1x4096 : 0 < S1x4096.numel
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  reduces_S512x1_S1 : S512x1.Reduces [0] S1
  shapeCasts_S1_S1x1 : S1.ShapeCasts S1x1
  shapeCasts_S1x1_S1x1 : S1x1.ShapeCasts S1x1
  shapeCasts_S1x4096_S1x4096 : S1x4096.ShapeCasts S1x4096
  reduces_S512x4096_S4096 : S512x4096.Reduces [0] S4096
  shapeCasts_S4096_S1x4096 : S4096.ShapeCasts S1x4096
  shapeCasts_S1x1_S_ : S1x1.ShapeCasts S_
  shapeCasts_S1x4096_S4096 : S1x4096.ShapeCasts S4096
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x4096.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩
abbrev S4096 : Shape := ⟨1, ![4096]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel
  reducesTo_S8192x4096_S4096_d0 : S8192x4096.ReducesTo [0] S4096
  reducesTo_S4096_S_d0 : S4096.ReducesTo [0] S_

variable [Facts₀]

class Facts : Prop extends Facts₀ where

variable [Facts]
-- ==== Proof.Pieces.lean ====
/-
  What one run of the kernel body leaves in its two accumulators, for any float instance.

  The body loads the [512, 4096] block x and the two accumulators (a [1, 1] total of squares and a [1, 4096] vector of
  column sums), and stores each accumulator once, whole: the [1, 1] one at `k0_pay3 x a` (a plus the block's sum of
  squares), the [1, 4096] one at `k0_pay4 x a` (a plus the block's column sums), where a is what that accumulator held
  when it was loaded. At the first grid point the body first stores the zero splat into both, so there a is the zero
  splat read back; at every later point a is what the point before left. Every store covers its whole buffer, so
  what a buffer ends holding is the last store's value.
-/
import proofs.«113009_j11665131176104_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## What each case of the body leaves in the two accumulators -/

/-- Past the first point the body leaves in the [1, 1] accumulator its one store's value: the update of what the buffer
    held (`xo1`) by the block `x`. -/
theorem out_B_1 (c : Dev nD) (i : grid0.Coords) (a1 : Memref sig .tc .vmem S512x4096 .f32) (h1 : a1.IsWhole)
    (a2 : Memref sig .tc .vmem S1x1 .f32) (h2 : a2.IsWhole) (a3 : Memref sig .tc .vmem S1x4096 .f32) (h3 : a3.IsWhole)
    (hc : ¬cond0_0 i) (x : Vec F S512x4096 .f32) (xo1 : Vec F S1x1 .f32) (xo2 : Vec F S1x4096 .f32) :
    out0_B_1 c i a1 h1 a2 h2 a3 h3 hc x xo1 xo2 = k0_pay3 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz]
  simp only [View.readAt_eq_ld, h1.read_unread, h2.read_unread, View.ld_unit_zero (S := S512x4096) hz,
    View.ld_unit_zero (S := S1x1) hz]

/-- Past the first point the body leaves in the [1, 4096] accumulator the update of what it held (`xo2`) by `x`. -/
theorem out_B_2 (c : Dev nD) (i : grid0.Coords) (a1 : Memref sig .tc .vmem S512x4096 .f32) (h1 : a1.IsWhole)
    (a2 : Memref sig .tc .vmem S1x1 .f32) (h2 : a2.IsWhole) (a3 : Memref sig .tc .vmem S1x4096 .f32) (h3 : a3.IsWhole)
    (hc : ¬cond0_0 i) (x : Vec F S512x4096 .f32) (xo1 : Vec F S1x1 .f32) (xo2 : Vec F S1x4096 .f32) :
    out0_B_2 c i a1 h1 a2 h2 a3 h3 hc x xo1 xo2 = k0_pay4 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz]
  simp only [View.readAt_eq_ld, h1.read_unread, h3.read_unread, View.ld_unit_zero (S := S512x4096) hz,
    View.ld_unit_zero (S := S1x4096) hz]

/-- At the first point the body first stores the zero splat into the [1, 1] accumulator, reads it back, and stores the
    update of that zero splat by the block `x`: the later store covers the earlier one. -/
theorem out_A_1 (c : Dev nD) (i : grid0.Coords) (a1 : Memref sig .tc .vmem S512x4096 .f32) (h1 : a1.IsWhole)
    (a2 : Memref sig .tc .vmem S1x1 .f32) (h2 : a2.IsWhole) (a3 : Memref sig .tc .vmem S1x4096 .f32) (h3 : a3.IsWhole)
    (hc : cond0_0 i) (x : Vec F S512x4096 .f32) :
    out0_A_1 c i a1 h1 a2 h2 a3 h3 hc x = k0_pay3 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S512x4096) hz]

/-- At the first point the [1, 4096] accumulator ends at the update of the zero splat by the block `x`. -/
theorem out_A_2 (c : Dev nD) (i : grid0.Coords) (a1 : Memref sig .tc .vmem S512x4096 .f32) (h1 : a1.IsWhole)
    (a2 : Memref sig .tc .vmem S1x1 .f32) (h2 : a2.IsWhole) (a3 : Memref sig .tc .vmem S1x4096 .f32) (h3 : a3.IsWhole)
    (hc : cond0_0 i) (x : Vec F S512x4096 .f32) :
    out0_A_2 c i a1 h1 a2 h2 a3 h3 hc x = k0_pay4 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S1x4096) hz, View.readCov_unit_zero (S := S1x4096) _ hz]
  simp only [View.readAt_eq_ld, h1.read_unread, View.ld_unit_zero (S := S512x4096) hz]

end Cert.KernelIdeal.Pieces

end
-- ==== Proof.TileSums.lean ====
/-
  Sums over an [8192, 4096] array of extended reals, regrouped by tiles of 512 rows.

  Row R of the array is row r of tile t for exactly one pair (t, r) with R = 512·t + r, t < 16, r < 512.
  So a sum over all 8192 rows is the sum over the 16 tiles of the sum over each tile's 512 rows. Addition of
  extended reals is commutative and associative (also at ±∞), so no finiteness is needed for this regrouping.
  Two instances are what the two programs meet in:

    * the sum of the squares of every entry is the sum over the tiles of each tile's sum of squares
      (rows inside the tile first, then along each row);
    * the sum of column j is the sum over the tiles of column j's sum inside each tile.

  Last, the scalar both programs end in, as ONE function `loss` of the total of squares `s` and the vector of column
  sums `cs`: 8192 · s − (0 + Σ_j cs_j · cs_j). Both sides apply it to their own `s` and `cs`; it is never opened.
  `result x` is `loss` at the array's own total of squares and column sums: the function of the argument array that
  both programs are shown to compute.
-/
import Idealize.ShloMosaic.Lib.ValueIdx
import Idealize.ShloMosaic.PureOps.Ideal.Laws

noncomputable section

open scoped BigOperators

namespace Cert.TileSums

open Idealize.ShloMosaic Idealize.ShloMosaic.ValueIdx

/-- Row `512·t + r` of the array: row `r` of tile `t`. -/
abbrev tileRow (t : Fin 16) (r : Fin 512) : Fin 8192 :=
  ⟨512 * t.val + r.val, by have := t.isLt; have := r.isLt; omega⟩

/-- A sum over the 8192 rows is the sum over the 16 tiles of the sums over each tile's 512 rows: every row is
    `512·t + r` for exactly one tile `t` and one row `r` of it. -/
theorem sum_rows_by_tile {M : Type*} [AddCommMonoid M] (f : Fin 8192 → M) :
    ∑ R : Fin 8192, f R = ∑ t : Fin 16, ∑ r : Fin 512, f (tileRow t r) := by
  rw [← (finProdFinEquiv (m := 16) (n := 512)).sum_comp f, Fintype.sum_prod_type]
  refine Finset.sum_congr rfl fun t _ => Finset.sum_congr rfl fun r _ => congrArg f (Fin.ext ?_)
  show r.val + 512 * t.val = 512 * t.val + r.val
  omega

/-- Tile `t` of the array `x`: its entry `(r, c)` is `x`'s entry `(512·t + r, c)`. -/
abbrev tile (x : (⟨2, ![8192, 4096]⟩ : Shape).Idx → EReal) (t : Fin 16) : (⟨2, ![512, 4096]⟩ : Shape).Idx → EReal :=
  fun y => x (ix2 (tileRow t (y 0)) (y 1))

/-- A tile's sum of squares: over its rows, of the sum along each row. -/
def tileSq (b : (⟨2, ![512, 4096]⟩ : Shape).Idx → EReal) : EReal :=
  ∑ r : Fin 512, ∑ c : Fin 4096, b (ix2 r c) * b (ix2 r c)

/-- The sum of column `j` inside a tile. -/
def tileCol (b : (⟨2, ![512, 4096]⟩ : Shape).Idx → EReal) (j : Fin 4096) : EReal :=
  ∑ r : Fin 512, b (ix2 r j)

/-- The sum of the squares of every entry is the sum of the tiles' sums of squares. -/
theorem sum_sq_by_tile (x : (⟨2, ![8192, 4096]⟩ : Shape).Idx → EReal) :
    ∑ i, x i * x i = ∑ t : Fin 16, tileSq (tile x t) := by
  rw [sum_idx2, sum_rows_by_tile]
  rfl

/-- The sum of column `j` is the sum of its sums inside the tiles. -/
theorem sum_col_by_tile (x : (⟨2, ![8192, 4096]⟩ : Shape).Idx → EReal) (j : Fin 4096) :
    ∑ R : Fin 8192, x (ix2 R j) = ∑ t : Fin 16, tileCol (tile x t) j := by
  rw [sum_rows_by_tile]
  rfl

/-- What both programs compute last, from the total of squares `s` and the column sums `cs`: `8192 · s` minus the sum,
    started at zero, of the squares of the column sums. The 8192 and the zero are the f32 words both programs print. -/
def loss (hred : (⟨1, ![4096]⟩ : Shape).ReducesTo [0] ⟨0, ![]⟩) (hpos : 0 < (⟨0, ![]⟩ : Shape).numel)
    (s : FVec Ideal ⟨0, ![]⟩ .f32) (cs : FVec Ideal ⟨1, ![4096]⟩ .f32) : FVec Ideal ⟨0, ![]⟩ .f32 :=
  subf (mulf (constant (F := Ideal) ⟨0, ![]⟩ .f32 0x46000000#32) s)
    (Host.reduceAdd (F := Ideal) (mulf cs cs) (constant (F := Ideal) ⟨0, ![]⟩ .f32 0x00000000#32) hred hpos)

/-- The sum of the squares of every entry of the array, as a scalar. -/
def sqTotal (x : (⟨2, ![8192, 4096]⟩ : Shape).Idx → EReal) : FVec Ideal ⟨0, ![]⟩ .f32 :=
  fun _ => ∑ i, x i * x i

/-- The column sums of the array, as a [4096] vector: entry `j` is the sum over the 8192 rows of column `j`. -/
def colTotals (x : (⟨2, ![8192, 4096]⟩ : Shape).Idx → EReal) : FVec Ideal ⟨1, ![4096]⟩ .f32 :=
  fun i => ∑ R : Fin 8192, x (ix2 R (i 0))

/-- The one function of the argument array both programs compute: `loss` of the total of squares and the column sums. -/
def result (hred : (⟨1, ![4096]⟩ : Shape).ReducesTo [0] ⟨0, ![]⟩) (hpos : 0 < (⟨0, ![]⟩ : Shape).numel)
    (x : (⟨2, ![8192, 4096]⟩ : Shape).Idx → EReal) : FVec Ideal ⟨0, ![]⟩ .f32 :=
  loss hred hpos (sqTotal x) (colTotals x)

end Cert.TileSums

end
-- ==== Proof.Payloads.lean ====
/-
  The two values the kernel body adds into its accumulators, read at an index over the extended reals.

  With x the [512, 4096] block the body loads:
    * into the [1, 1] accumulator it adds Σ_r Σ_c x(r,c)² — the squares summed along each row (a lane reduction),
      the 512 row sums reshaped to a [512, 1] column and summed again, the result reshaped to [1, 1];
    * into the [1, 4096] accumulator it adds, at lane j, Σ_r x(r,j) — a reduction over the rows, reshaped to [1, 4096].
  The reshapes move no value: each reads its operand at the index with the same row-major position. Each reduction
  starts from the zero word; read as an exact sum that start is already absorbed.
-/
import proofs.«113009_j11665131176104_1_alg».proof.Proof.Gen.KernelIdeal.Skeleton
import proofs.«113009_j11665131176104_1_alg».proof.Proof.TileSums
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Payloads

open Idealize.ShloMosaic Idealize.ShloMosaic.ValueIdx Cert.KernelIdeal Cert.KernelIdeal.Gen Cert.TileSums

/-- Reducing a [512, 4096] block along its lanes: the index summed at row `r`, lane `c`, is `(r, c)`. -/
theorem lift_lane (r : Fin 512) (c : Fin 4096) : reduces_S512x4096_S512.lift (ix1 r) c = ix2 r c :=
  funext fun a => Fin.ext (by match a with | ⟨0, _⟩ => rfl | ⟨1, _⟩ => rfl)

/-- Reducing a [512, 4096] block along its rows: the index summed at lane `j`, row `r`, is `(r, j)`. -/
theorem lift_row (j : Fin 4096) (r : Fin 512) : reduces_S512x4096_S4096.lift (ix1 j) r = ix2 r j :=
  funext fun a => Fin.ext (by match a with | ⟨0, _⟩ => rfl | ⟨1, _⟩ => rfl)

/-- The value the body stores into the [1, 1] accumulator, at the ideal instance: what the accumulator held plus the
    block's sum of squares — the squares summed along each row, the 512 row sums (kept as a [512, 1] column) summed
    in turn. Each reduction starts from the zero word, which its reading as a sum has already absorbed. -/
theorem pay3_apply (x : Vec Ideal S512x4096 .f32) (a : Vec Ideal S1x1 .f32) (i : S1x1.Idx) :
    k0_pay3 (F := Ideal) x a i = a i + tileSq x := by
  unfold k0_pay3
  refine congrArg₂ (· + ·) ?_ ?_
  · exact congrFun (shapeCast_self a _) i
  · obtain ⟨u, w, rfl⟩ : ∃ (u : Fin 1) (w : Fin 1), i = ix2 u w := ⟨i 0, i 1, eq_ix2 i⟩
    refine (shapeCast_a_1a_apply _ _ u w).trans ?_
    refine (Ideal.multiReduction_add_single _ _ _ _ _ (ix1 w)).trans ?_
    unfold tileSq
    refine Finset.sum_congr rfl fun (r : Fin 512) _ => ?_
    refine (shapeCast_apply _ _ _ (ix1 r) ?_).trans ?_
    · rw [Shape.rowMajor_val_one, Shape.rowMajor_val_two]
      show r.val = r.val * 1 + w.val
      omega
    · refine (Ideal.multiReduction_add_single _ _ _ _ _ (ix1 r)).trans ?_
      exact Finset.sum_congr rfl fun c _ => congrArg (fun y => x y * x y) (lift_lane r c)

/-- The value the body stores into the [1, 4096] accumulator, at the ideal instance: at lane `j`, what the accumulator
    held there plus the sum of the block's column `j`. -/
theorem pay4_apply (x : Vec Ideal S512x4096 .f32) (a : Vec Ideal S1x4096 .f32) (u : Fin 1) (j : Fin 4096) :
    k0_pay4 (F := Ideal) x a (ix2 u j) = a (ix2 u j) + tileCol x j := by
  unfold k0_pay4
  refine congrArg₂ (· + ·) ?_ ?_
  · exact congrFun (shapeCast_self a _) _
  · refine (shapeCast_a_1a_apply _ _ u j).trans ?_
    refine (Ideal.multiReduction_add_single _ _ _ _ _ (ix1 j)).trans ?_
    unfold tileCol
    exact Finset.sum_congr rfl fun (r : Fin 512) _ => congrArg x (lift_row j r)

end Cert.KernelIdeal.Payloads

end
-- ==== Proof.Running.lean ====
/-
  The kernel's two accumulators point by point, and what they hold over the extended reals.

  The grid has 16 points; point t loads tile t of the [8192, 4096] argument array (rows 512·t … 512·t + 511). Point 0
  starts both accumulators at the zero splat and adds tile 0's contribution; point n + 1 adds tile n + 1's to what
  point n left. So over the extended reals, after point n:
    * the [1, 1] accumulator holds Σ_{t ≤ n} (tile t's sum of squares),
    * lane j of the [1, 4096] accumulator holds Σ_{t ≤ n} (the sum of tile t's column j),
  the starting zero adding nothing. Both by induction on the point.
-/
import proofs.«113009_j11665131176104_1_alg».proof.Proof.Pieces
import proofs.«113009_j11665131176104_1_alg».proof.Proof.Payloads

noncomputable section

open scoped BigOperators
open Idealize.ShloMosaic Idealize.ShloMosaic.TcCoe Idealize.SL.Sem
open Idealize.ShloMosaic.Pipeline (Dat)

namespace Cert.KernelIdeal.Running

open Cert.KernelIdeal Cert.KernelIdeal.Gen Cert.KernelIdeal.Pieces

variable {F : FTy → Type} [FloatOps F]
variable (m : (ℓ : Loc nD τ sig) → Buf (Elt F) ℓ)

/-- The block of the argument array the body loads at grid point `t`: rows `512·t … 512·t + 511`, every column. -/
abbrev xblk (c : Dev nD) (t : Fin cfg0.N) : Vec F S512x4096 .f32 := iblk m c 0 t

/-- The pair of accumulators after point `n`: at point 0 the zero splats updated by block 0; at point `n + 1` what
    point `n` left, updated by block `n + 1`. -/
def acc (c : Dev nD) : (n : ℕ) → n < cfg0.N → Vec F S1x1 .f32 × Vec F S1x4096 .f32
  | 0, h => (k0_pay3 (xblk m c ⟨0, h⟩) (k0_pay1 (F := F)), k0_pay4 (xblk m c ⟨0, h⟩) (k0_pay2 (F := F)))
  | n + 1, h => (k0_pay3 (xblk m c ⟨n + 1, h⟩) (acc c n (Nat.lt_of_succ_lt h)).1,
      k0_pay4 (xblk m c ⟨n + 1, h⟩) (acc c n (Nat.lt_of_succ_lt h)).2)

/-- What the two staging buffers hold after point `n` is that pair: by induction on the point, the first point in the
    resetting case and every later one in the accumulating case. -/
theorem outsAt_eq (c : Dev nD) : ∀ (n : ℕ) (h : n < cfg0.N), outsAt0 m c n h = acc m c n h
  | 0, h => by
    rw [outsAt0_A m c ⟨0, h⟩ rfl, out_A_1, out_A_2]
    rfl
  | n + 1, h => by
    have hN : cfg0.N = 16 := N_0
    have hB : ¬(⟨n + 1, h⟩ : Fin cfg0.N).val % 16 = 0 := by dsimp only; omega
    rw [outsAt0_B m c ⟨n + 1, h⟩ hB, out_B_1, out_B_2]
    show (k0_pay3 _ (outsAt0 m c n _).1, k0_pay4 _ (outsAt0 m c n _).2) = _
    rw [outsAt_eq c n]
    rfl

/-! ## Read over the extended reals -/

open Idealize.ShloMosaic.ValueIdx Cert.TileSums Cert.KernelIdeal.Payloads

variable (mI : (ℓ : Loc nD τ sig) → Buf (Elt Ideal) ℓ)

/-- The zero splat the first point stores into the [1, 1] accumulator is the extended real 0. -/
theorem pay1_apply (i : S1x1.Idx) : k0_pay1 (F := Ideal) i = 0 := by
  show Ideal.ofBits .f32 0x00000000#32 = 0
  exact Ideal.ofBits_zero_f32

/-- The zero splat the first point stores into the [1, 4096] accumulator is 0 at every lane. -/
theorem pay2_apply (i : S1x4096.Idx) : k0_pay2 (F := Ideal) i = 0 := by
  show Ideal.ofBits .f32 0x00000000#32 = 0
  exact Ideal.ofBits_zero_f32

/-- After point `n` the [1, 1] accumulator holds the sum, over the blocks loaded at points `0 … n`, of each block's
    sum of squares: the zero it starts from adds nothing, and each point adds its own block's. -/
theorem acc_sq (c : Dev nD) : ∀ (n : ℕ) (h : n < cfg0.N) (i : S1x1.Idx),
    (acc mI c n h).1 i = ∑ t : Fin (n + 1), tileSq (xblk mI c ⟨t.val, Nat.lt_of_lt_of_le t.isLt h⟩)
  | 0, h, i => by
    show k0_pay3 (F := Ideal) (xblk mI c ⟨0, h⟩) (k0_pay1 (F := Ideal)) i = _
    rw [pay3_apply, pay1_apply, zero_add, Fin.sum_univ_one]
    rfl
  | n + 1, h, i => by
    show k0_pay3 (F := Ideal) (xblk mI c ⟨n + 1, h⟩) (acc mI c n (Nat.lt_of_succ_lt h)).1 i = _
    rw [pay3_apply, acc_sq c n (Nat.lt_of_succ_lt h) i]
    exact (Fin.sum_univ_castSucc
      (fun t : Fin (n + 1 + 1) => tileSq (xblk mI c ⟨t.val, Nat.lt_of_lt_of_le t.isLt h⟩))).symm

/-- After point `n` lane `j` of the [1, 4096] accumulator holds the sum, over the blocks loaded at points `0 … n`, of
    each block's column `j`. -/
theorem acc_col (c : Dev nD) : ∀ (n : ℕ) (h : n < cfg0.N) (u : Fin 1) (j : Fin 4096),
    (acc mI c n h).2 (ix2 u j) = ∑ t : Fin (n + 1), tileCol (xblk mI c ⟨t.val, Nat.lt_of_lt_of_le t.isLt h⟩) j
  | 0, h, u, j => by
    show k0_pay4 (F := Ideal) (xblk mI c ⟨0, h⟩) (k0_pay2 (F := Ideal)) (ix2 u j) = _
    rw [pay4_apply, pay2_apply, zero_add, Fin.sum_univ_one]
    rfl
  | n + 1, h, u, j => by
    show k0_pay4 (F := Ideal) (xblk mI c ⟨n + 1, h⟩) (acc mI c n (Nat.lt_of_succ_lt h)).2 (ix2 u j) = _
    rw [pay4_apply, acc_col c n (Nat.lt_of_succ_lt h) u j]
    exact (Fin.sum_univ_castSucc
      (fun t : Fin (n + 1 + 1) => tileCol (xblk mI c ⟨t.val, Nat.lt_of_lt_of_le t.isLt h⟩) j)).symm

/-- The argument array as the kernel region finds it. -/
abbrev xarr (c : Dev nD) : Vec Ideal S8192x4096 .f32 := mI ((c : Thread nD τ).loc main_arg0)

/-- The input window's block index at point `t` is `(t, 0)`: decided over the 16 points. -/
theorem index_in : ∀ t : Fin cfg0.N, win0_0.index t 0 = t.val ∧ win0_0.index t 1 = 0 :=
  (by decide +kernel : ∀ t : Fin grid0.N, win0_0.index t 0 = t.val ∧ win0_0.index t 1 = 0)

/-- The block loaded at point `t` is tile `t` of the argument array: its entry `(r, c)` is the array's
    `(512·t + r, c)`. -/
theorem xblk_eq_tile (c : Dev nD) (t : Fin cfg0.N) (t' : Fin 16) (ht : t'.val = t.val) :
    xblk mI c t = tile (xarr mI c) t' := by
  have hi := index_in t
  funext y
  show iblk mI c 0 t y = _
  unfold iblk
  rw [View.read_apply]
  show V mI c main_arg0 _ = mI ((c : Thread nD τ).loc main_arg0) _
  refine congrArg (mI ((c : Thread nD τ).loc main_arg0)) (funext fun a => Fin.ext ?_)
  match a with
  | ⟨0, _⟩ =>
    show win0_0.index t 0 * 512 + 1 * (y 0).val = 512 * t'.val + (y 0).val
    rw [hi.1, ht]; omega
  | ⟨1, _⟩ =>
    show win0_0.index t 1 * 4096 + 1 * (y 1).val = (y 1).val
    rw [hi.2]; omega

end Cert.KernelIdeal.Running

end
-- ==== Proof.KernelValue.lean ====
/-
  The kernel program's run, read as values, for any float instance.

  Both accumulators are written back to their result arrays once, after the last of the 16 grid points, and each one's
  single block is its whole array; so the [1, 1] array ends at the first accumulator after point 15 and the
  [1, 4096] array at the second. The host operations after the region reshape the two arrays (to a scalar and to a
  [4096] vector) and compute 8192 · s − (0 + Σ_j cs_j · cs_j) from them: `lossOf`.
-/
import proofs.«113009_j11665131176104_1_alg».proof.Proof.Running
import Idealize.ShloMosaic.Lib.Pipeline.Value
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Running

variable {F : FTy → Type} [FloatOps F]
variable (m : (ℓ : Loc nD τ sig) → Buf (Elt F) ℓ) (ρ : Dev nD → PrngReg)

/-! ## The two result arrays of the kernel region -/

/-- The grid's last point is point 15. -/
theorem lastPt : 15 < cfg0.N := by rw [show cfg0.N = 16 from N_0]; decide

/-- What the [1, 1] result array ends holding: the first accumulator after the last point. -/
abbrev sqArr (c : Dev nD) : Buf (Elt F) ((c : Thread nD τ).loc main_v0_0) := (acc m c 15 lastPt).1

/-- What the [1, 4096] result array ends holding: the second accumulator after the last point. -/
abbrev colArr (c : Dev nD) : Buf (Elt F) ((c : Thread nD τ).loc main_v0_1) := (acc m c 15 lastPt).2

/-- The [1, 1] accumulator is written back once, after the last point; its one block, at offset zero and of the
    array's own size, is the whole array, so what is written back is the array's final contents. -/
theorem flushed_sq (c : Dev nD) (t : Fin cfg0.N) (hf : (cfg0.win 1).flush t = true) :
    (dats m 0 c).flushed 1 t = ((cfg0.win 1).blk t).view.read (Elt F) (sqArr m c) := by
  have hN : cfg0.N = 16 := N_0
  obtain rfl : t = t0_15 := Fin.ext (by have := (flush0_1 t).mp hf; have := t.isLt; show t.val = 15; omega)
  have hoff : (fun a => win0_1.index t0_15 a * main_v0_0.ty.shape.size a) = fun _ => 0 :=
    funext fun a => by fin_cases a <;> decide
  refine Eq.trans ?_ (Memref.read_access_unit_zero (Elt F) main_v0_0 hoff
    (fun a => by rw [congrFun hoff a]; simp) (sqArr m c)).symm
  show (dats m 0 c).after 1 t0_15 = _
  rw [after0_1, outsAt_eq]
  rfl

/-- The same for the [1, 4096] accumulator. -/
theorem flushed_col (c : Dev nD) (t : Fin cfg0.N) (hf : (cfg0.win 2).flush t = true) :
    (dats m 0 c).flushed 2 t = ((cfg0.win 2).blk t).view.read (Elt F) (colArr m c) := by
  have hN : cfg0.N = 16 := N_0
  obtain rfl : t = t0_15 := Fin.ext (by have := (flush0_2 t).mp hf; have := t.isLt; show t.val = 15; omega)
  have hoff : (fun a => win0_2.index t0_15 a * main_v0_1.ty.shape.size a) = fun _ => 0 :=
    funext fun a => by fin_cases a <;> decide
  refine Eq.trans ?_ (Memref.read_access_unit_zero (Elt F) main_v0_1 hoff
    (fun a => by rw [congrFun hoff a]; simp) (colArr m c)).symm
  show (dats m 0 c).after 2 t0_15 = _
  rw [after0_2, outsAt_eq]
  rfl

/-- Every index of the [1, 1] array lies in the block written back after the last point. -/
theorem cover_sq (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨t0_15, (flush0_1 t0_15).mpr rfl, ?_⟩
  show i ∈ ((View.whole main_v0_0).slice (win0_1.rect t0_15)).set
  rw [View.set_slice_whole, Rect.mem_set_unit]
  intro a
  match a with
  | ⟨0, _⟩ =>
    have hi : (i 0 : Nat) < 1 := (i 0).isLt
    show win0_1.index t0_15 0 * win0_1.size 0 ≤ (i 0 : Nat) ∧ (i 0 : Nat) < win0_1.index t0_15 0 * win0_1.size 0 + win0_1.xsize (grid0.coords t0_15) 0
    rw [show win0_1.index t0_15 0 * win0_1.size 0 = 0 from by decide +kernel, show win0_1.xsize (grid0.coords t0_15) 0 = 1 from by decide +kernel]
    omega
  | ⟨1, _⟩ =>
    have hi : (i 1 : Nat) < 1 := (i 1).isLt
    show win0_1.index t0_15 1 * win0_1.size 1 ≤ (i 1 : Nat) ∧ (i 1 : Nat) < win0_1.index t0_15 1 * win0_1.size 1 + win0_1.xsize (grid0.coords t0_15) 1
    rw [show win0_1.index t0_15 1 * win0_1.size 1 = 0 from by decide +kernel, show win0_1.xsize (grid0.coords t0_15) 1 = 1 from by decide +kernel]
    omega

/-- Every index of the [1, 4096] array lies in the block written back after the last point. -/
theorem cover_col (c : Dev nD) (i : ((cfg0.win 2).arr.view.loc (c.tc : Thread nD τ)).2.ty.Idx) :
    ∃ t : Fin cfg0.N, (cfg0.win 2).flush t = true ∧ i ∈ ((cfg0.win 2).blk t).view.set := by
  refine ⟨t0_15, (flush0_2 t0_15).mpr rfl, ?_⟩
  show i ∈ ((View.whole main_v0_1).slice (win0_2.rect t0_15)).set
  rw [View.set_slice_whole, Rect.mem_set_unit]
  intro a
  match a with
  | ⟨0, _⟩ =>
    have hi : (i 0 : Nat) < 1 := (i 0).isLt
    show win0_2.index t0_15 0 * win0_2.size 0 ≤ (i 0 : Nat) ∧ (i 0 : Nat) < win0_2.index t0_15 0 * win0_2.size 0 + win0_2.xsize (grid0.coords t0_15) 0
    rw [show win0_2.index t0_15 0 * win0_2.size 0 = 0 from by decide +kernel, show win0_2.xsize (grid0.coords t0_15) 0 = 1 from by decide +kernel]
    omega
  | ⟨1, _⟩ =>
    have hi : (i 1 : Nat) < 4096 := (i 1).isLt
    show win0_2.index t0_15 1 * win0_2.size 1 ≤ (i 1 : Nat) ∧ (i 1 : Nat) < win0_2.index t0_15 1 * win0_2.size 1 + win0_2.xsize (grid0.coords t0_15) 1
    rw [show win0_2.index t0_15 1 * win0_2.size 1 = 0 from by decide +kernel, show win0_2.xsize (grid0.coords t0_15) 1 = 4096 from by decide +kernel]
    omega

/-- So the [1, 1] result array ends at the first accumulator after the last point, -/
theorem final_sq (c : Dev nD) : (dats m 0 c).arrAt 1 cfg0.N = sqArr m c :=
  (dats m 0 c).arrAt_eq_of_cover 1 (sqArr m c) (flushed_sq m c) (cover_sq c)

/-- and the [1, 4096] result array at the second. -/
theorem final_col (c : Dev nD) : (dats m 0 c).arrAt 2 cfg0.N = colArr m c :=
  (dats m 0 c).arrAt_eq_of_cover 2 (colArr m c) (flushed_col m c) (cover_col c)

/-! ## The host operations after the region, and the run -/

/-- What the host operations after the region compute from the two result arrays `s` ([1, 1]) and `cs` ([1, 4096]):
    both reshaped (to a scalar and to a [4096] vector), then `8192 · s` minus the sum, started at zero, of the squares of
    `cs`'s entries. -/
def lossOf (s : Vec F S1x1 .f32) (cs : Vec F S1x4096 .f32) : FVec F S_ .f32 :=
  subf (mulf (constant S_ .f32 0x46000000#32) (shapeCast S_ s shapeCasts_S1x1_S_))
    (Host.reduceAdd (mulf (shapeCast S4096 cs shapeCasts_S1x4096_S4096) (shapeCast S4096 cs shapeCasts_S1x4096_S4096))
      (constant S_ .f32 0x00000000#32) reducesTo_S4096_S_d0 h_S_)

/-- The result buffer after the host operations that follow the region: they read the two result arrays as the region
    left them. -/
theorem tail_eq (c : Dev nD) :
    Pipeline.afterTail₀ cfgs (dats m) 0 (V0 m) [hostOps1] c main_v6 = lossOf (sqArr m c) (colArr m c) := by
  unfold Pipeline.afterTail₀
  show StableHlo.after hostOps1 _ (Proc.devRef .tc main_v6) = _
  after_results
  rw [show Pipeline.withArrays (cfgs 0).spec c (V0 m c) (fun w => (dats m 0 c).arrAt w (cfgs 0).N) (Proc.tc.devRef main_v0_0)
        = sqArr m c from (Pipeline.withArrays_arr spec0 launch0.win.arr_inj c _ _ 1).trans (final_sq m c),
    show Pipeline.withArrays (cfgs 0).spec c (V0 m c) (fun w => (dats m 0 c).arrAt w (cfgs 0).N) (Proc.tc.devRef main_v0_1)
        = colArr m c from (Pipeline.withArrays_arr spec0 launch0.win.arr_inj c _ _ 2).trans (final_col m c)]
  rfl

/-- The kernel program's run, read: every weakly fair execution terminates with the result at `lossOf` of the two
    accumulators after the last point, and the argument array unchanged. -/
theorem run : θ_run defs (onTc (τ := τ) (main (F := F))) ⟨m, fun _ => 0, ρ⟩ fun r => ∀ c : Dev nD,
      r.2.mem ((c.tc : Thread nD τ).loc main_v6) = lossOf (sqArr m c) (colArr m c)
      ∧ r.2.mem ((c.tc : Thread nD τ).loc main_arg0) = m ((c.tc : Thread nD τ).loc main_arg0) :=
  (θ_run defs _ _).mono (fun _ h c => ⟨((h c).2 main_v6 (by decide)).trans (tail_eq m c),
      ((h c).1 0).trans (((dats m 0 c).arrAt_in 0 rfl _).trans ((A_eq m c 0).trans (V_main_arg0 m c)))⟩)
    (run_main m ρ)

end Cert.KernelIdeal.KernelValue

end
-- ==== Proof.KernelTotals.lean ====
/-
  The kernel program's result over the extended reals, as a function of its argument array x.

  After the last grid point the [1, 1] accumulator holds Σ_{t<16} (tile t's sum of squares) and lane j of the
  [1, 4096] accumulator holds Σ_{t<16} (tile t's column-j sum); the block loaded at point t is tile t of x. Regrouping
  by tiles (row R = 512·t + r), the first is the sum of the squares of every entry of x and the second is the sum of
  column j of x. The host operations after the region apply `loss` to these two: the result is `result x`.
-/
import proofs.«113009_j11665131176104_1_alg».proof.Proof.KernelValue
import Idealize.ShloMosaic.Lib.ValueLayout

noncomputable section

open scoped BigOperators
open Idealize.ShloMosaic Idealize.ShloMosaic.TcCoe Idealize.SL.Sem Idealize.ShloMosaic.ValueIdx

namespace Cert.KernelIdeal.KernelTotals

open Cert.KernelIdeal Cert.KernelIdeal.Gen Cert.KernelIdeal.Running Cert.KernelIdeal.KernelValue Cert.TileSums

variable (mI : (ℓ : Loc nD τ sig) → Buf (Elt Ideal) ℓ) (ρ : Dev nD → PrngReg)

/-- The [1, 1] result array, reshaped to a scalar, is the sum of the squares of every entry of the argument array:
    after the last point the accumulator holds the sum over all 16 tiles of each tile's sum of squares. -/
theorem sq_total (c : Dev nD) :
    shapeCast S_ (sqArr mI c) shapeCasts_S1x1_S_ = sqTotal (xarr mI c) := by
  funext i
  have h1 : S_.numel = 1 := by decide
  refine (shapeCast_apply _ _ i (ix2 (0 : Fin 1) (0 : Fin 1)) ?_).trans ?_
  · rw [Shape.rowMajor_val_two]
    have := (S_.rowMajor i).isLt
    show 0 * 1 + 0 = (S_.rowMajor i).val
    omega
  · refine (acc_sq mI c 15 lastPt _).trans ?_
    refine Eq.trans ?_ (sum_sq_by_tile (xarr mI c)).symm
    exact Finset.sum_congr rfl fun t _ => congrArg tileSq (xblk_eq_tile mI c _ t rfl)

/-- The [1, 4096] result array, reshaped to a [4096] vector, is the vector of the argument array's column sums. -/
theorem col_total (c : Dev nD) :
    shapeCast S4096 (colArr mI c) shapeCasts_S1x4096_S4096 = colTotals (xarr mI c) := by
  funext i
  obtain ⟨j, rfl⟩ : ∃ j : Fin 4096, i = ix1 j := ⟨i 0, eq_ix1 i⟩
  refine (shapeCast_1a_a_apply _ _ j).trans ?_
  refine (acc_col mI c 15 lastPt 0 j).trans ?_
  refine Eq.trans ?_ (sum_col_by_tile (xarr mI c) j).symm
  exact Finset.sum_congr rfl fun t _ => congrArg (fun b => tileCol b j) (xblk_eq_tile mI c _ t rfl)

/-- So what the host operations after the region compute from the two result arrays is `result` of the argument array. -/
theorem lossOf_eq (c : Dev nD) :
    lossOf (F := Ideal) (sqArr mI c) (colArr mI c) = result reducesTo_S4096_S_d0 h_S_ (xarr mI c) := by
  unfold result
  rw [← sq_total mI c, ← col_total mI c]
  rfl

/-- The kernel program's run at the ideal instance: the result is `result` of the argument array, which is unchanged. -/
theorem run : θ_run defs (onTc (τ := τ) (main (F := Ideal))) ⟨mI, fun _ => 0, ρ⟩ fun r => ∀ c : Dev nD,
      r.2.mem ((c.tc : Thread nD τ).loc main_v6) = result reducesTo_S4096_S_d0 h_S_ (mI ((c.tc : Thread nD τ).loc main_arg0))
      ∧ r.2.mem ((c.tc : Thread nD τ).loc main_arg0) = mI ((c.tc : Thread nD τ).loc main_arg0) :=
  (θ_run defs _ _).mono (fun _ h c => ⟨(h c).1.trans (lossOf_eq mI c), (h c).2⟩) (KernelValue.run mI ρ)

end Cert.KernelIdeal.KernelTotals

end
-- ==== Proof.RefValue.lean ====
/-
  The reference's result as a function of its argument. With x the [8192, 4096] argument array over the
  extended reals, the reference computes

      8192 · (0 + Σ_{(r,c)} x(r,c)²)  −  (0 + Σ_j (0 + Σ_r x(r,j))²),

  the first sum over every index of the array, the inner sum of the second over the rows of column j. Each host sum
  starts from the zero word, which adds nothing; so its total of squares is `sqTotal x`, its column sums are
  `colTotals x`, and its result is `result x`.
-/
import proofs.«113009_j11665131176104_1_alg».proof.Proof.Gen.ReferenceIdeal.Read
import proofs.«113009_j11665131176104_1_alg».proof.Proof.TileSums
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Idealize.SL.Sem
open Cert.ReferenceIdeal Cert.ReferenceIdeal.Gen Cert.ReferenceIdeal.Read Cert.TileSums

/-- The reference's sum of `x · x` over both axes, started at zero, is the sum of the squares of every entry. -/
theorem sq_total (x : (⟨S8192x4096, .f32⟩ : BufTy).Contents (Elt Ideal)) :
    Host.reduceAdd (F := Ideal) (mulf x x) (constant S_ .f32 0x00000000#32) reducesTo_S8192x4096_S_d0_1 h_S_
      = sqTotal x := by
  funext i
  refine (val_main_v1_apply x i).trans ?_
  show Ideal.ofBits .f32 0x00000000#32 + ∑ j, x j * x j = ∑ j, x j * x j
  rw [Ideal.ofBits_zero_f32, zero_add]

/-- The reference's sum of `x` over its rows, started at zero, is the vector of column sums. -/
theorem col_total (x : (⟨S8192x4096, .f32⟩ : BufTy).Contents (Elt Ideal)) :
    Host.reduceAdd (F := Ideal) x (constant S_ .f32 0x00000000#32) reducesTo_S8192x4096_S4096_d0 h_S_
      = colTotals x := by
  funext i
  refine (val_main_v2_apply x i).trans ?_
  show Ideal.ofBits .f32 0x00000000#32 + ∑ k : Fin 8192, x (idx_main_v2 i k) = ∑ R : Fin 8192, x (ix2 R (i 0))
  rw [Ideal.ofBits_zero_f32, zero_add]
  exact Finset.sum_congr rfl fun k _ => congrArg x
    (funext fun a => Fin.ext (by match a with | ⟨0, _⟩ => rfl | ⟨1, _⟩ => rfl))

/-- So the term the reference's run ends at is `result x`. -/
theorem result_eq (x : (⟨S8192x4096, .f32⟩ : BufTy).Contents (Elt Ideal)) :
    subf (mulf (constant S_ .f32 0x46000000#32) (Host.reduceAdd (F := Ideal) (mulf x x) (constant S_ .f32 0x00000000#32) reducesTo_S8192x4096_S_d0_1 h_S_))
      (Host.reduceAdd (F := Ideal) (mulf (Host.reduceAdd (F := Ideal) x (constant S_ .f32 0x00000000#32) reducesTo_S8192x4096_S4096_d0 h_S_)
          (Host.reduceAdd (F := Ideal) x (constant S_ .f32 0x00000000#32) reducesTo_S8192x4096_S4096_d0 h_S_))
        (constant S_ .f32 0x00000000#32) reducesTo_S4096_S_d0 h_S_)
      = result reducesTo_S4096_S_d0 h_S_ x := by
  unfold result
  rw [← sq_total x, ← col_total x]
  rfl

end Cert.ReferenceIdeal.RefValue

end
-- ==== Proof.lean ====
/-
  The kernel and the reference compute the same number from the [8192, 4096] array x, over the extended reals:

      8192 · Σ_{(r,c)} x(r,c)²  −  Σ_j (Σ_r x(r,j))²      (each sum started at zero, which adds nothing).

  The reference takes the two inner sums over the whole array at once. The kernel walks the array in 16 tiles of 512
  rows, keeping a running total of squares (summed along each row, then over the tile's rows) and a running vector of
  column sums, and computes the last line on the host from the two running values after the last tile. The two agree
  because a sum over all rows is the sum over the tiles of the sums over each tile's rows — a regrouping of a sum of
  extended reals, which holds whatever the entries are (the precondition is not used). Both programs apply the same
  last line, `loss`, to equal totals, so it is never opened.

  The kernel's and the idealized kernel's frames are the generated frame certificates; the reference's frame is its
  generated run with the result dropped; the idealization rewrote nothing, so `preserves` is trivial.
-/
import proofs.«113009_j11665131176104_1_alg».proof.Defs
import proofs.«113009_j11665131176104_1_alg».proof.Proof.Gen.Kernel
import proofs.«113009_j11665131176104_1_alg».proof.Proof.Gen.Kernel.Skeleton
import proofs.«113009_j11665131176104_1_alg».proof.Proof.Gen.Kernel.Launch
import proofs.«113009_j11665131176104_1_alg».proof.Proof.Gen.Kernel.Points
import proofs.«113009_j11665131176104_1_alg».proof.Proof.Gen.Kernel.Frame
import proofs.«113009_j11665131176104_1_alg».proof.Proof.Gen.KernelIdeal
import proofs.«113009_j11665131176104_1_alg».proof.Proof.Gen.KernelIdeal.Skeleton
import proofs.«113009_j11665131176104_1_alg».proof.Proof.Gen.KernelIdeal.Launch
import proofs.«113009_j11665131176104_1_alg».proof.Proof.Gen.KernelIdeal.Points
import proofs.«113009_j11665131176104_1_alg».proof.Proof.Gen.KernelIdeal.Frame
import proofs.«113009_j11665131176104_1_alg».proof.Proof.Gen.ReferenceIdeal
import proofs.«113009_j11665131176104_1_alg».proof.Proof.Gen.ReferenceIdeal.Run
import proofs.«113009_j11665131176104_1_alg».proof.Proof.Gen.Pre_finite_inputs
import proofs.«113009_j11665131176104_1_alg».proof.Proof.KernelTotals
import proofs.«113009_j11665131176104_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at `result` of the argument array: the kernel by its run read tile by tile, the reference by its
    run read sum by sum, from arguments that agree. -/
theorem algebraic : Cert.algebraic_KernelIdeal_ReferenceIdeal := by
  intro m ρ m' ρ' _ hagree
  refine ⟨fun c => Cert.TileSums.result Cert.KernelIdeal.Gen.reducesTo_S4096_S_d0 Cert.KernelIdeal.Gen.h_S_
      (m ((c.tc : Thread Cert.KernelIdeal.nD Cert.KernelIdeal.τ).loc Cert.KernelIdeal.main_arg0)),
    Cert.KernelIdeal.KernelTotals.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RefValue.result_eq _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
